-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S64x2x512x512 : Shape := ⟨4, ![64, 2, 512, 512]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel
  bcast_S_S64x2x512x512 : S_.BroadcastsInDim S64x2x512x512 (![] : Fin 0 → Fin S64x2x512x512.rank)
  reducesTo_S64x2x512x512_S_d0_1_2_3 : S64x2x512x512.ReducesTo [0, 1, 2, 3] S_

variable [Facts]

def fn_part1 {F : FTy → Type} [FloatOps F] (main_v13 : IVec S_ 1) (main_v16 : IVec S64x512x512 1) : IVec S_ 1 :=
  let main_c_5 : IVec S_ 1 := constantI S_ 1 1#1
  let main_v17 : IVec S_ 1 := (fun x v => Host.reduce IntOp.andi x v reducesTo_S64x512x512_S_d0_1_2 h_S_) main_v16 main_c_5
  let main_v18 : IVec S_ 1 := andi main_v13 main_v17
  main_v18

def fn {F : FTy → Type} [FloatOps F] (main_arg0 : FVec F S64x512x512 .f32) (main_arg1 : FVec F S64x512x512 .f32) (main_arg2 : FVec F S64x2x512x512 .f32) (main_arg3 : FVec F S64x512x512 .f32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  let main_v4 : FVec F S64x512x512 .f32 := Host.absf main_arg1
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  let main_v9 : FVec F S64x2x512x512 .f32 := Host.absf main_arg2
  let main_cst_2 : FVec F S_ .f32 := constant S_ .f32 0x7F800000#32
  let main_v10 : FVec F S64x2x512x512 .f32 := broadcastInDim S64x2x512x512 ![] bcast_S_S64x2x512x512 main_cst_2
  let main_v11 : IVec S64x2x512x512 1 := cmpf .olt main_v9 main_v10
  let main_c_3 : IVec S_ 1 := constantI S_ 1 1#1
  let main_v12 : IVec S_ 1 := (fun x v => Host.reduce IntOp.andi x v reducesTo_S64x2x512x512_S_d0_1_2_3 h_S_) main_v11 main_c_3
  let main_v13 : IVec S_ 1 := andi main_v8 main_v12
  let main_v14 : FVec F S64x512x512 .f32 := Host.absf main_arg3
  let main_cst_4 : FVec F S_ .f32 := constant S_ .f32 0x7F800000#32
  let main_v15 : FVec F S64x512x512 .f32 := broadcastInDim S64x512x512 ![] bcast_S_S64x512x512 main_cst_4
  let main_v16 : IVec S64x512x512 1 := cmpf .olt main_v14 main_v15
  fn_part1 (F := F) main_v13 main_v16
-- ==== Kernel.lean ====
abbrev S64x512x512 : Shape := ⟨3, ![64, 512, 512]⟩
abbrev S64x2x512x512 : Shape := ⟨4, ![64, 2, 512, 512]⟩
abbrev S1x1 : Shape := ⟨2, ![1, 1]⟩
abbrev S2x512x512 : Shape := ⟨3, ![2, 512, 512]⟩
abbrev S2x2x512x512 : Shape := ⟨4, ![2, 2, 512, 512]⟩
abbrev S2x1x512x512 : Shape := ⟨4, ![2, 1, 512, 512]⟩
abbrev S2x512 : Shape := ⟨2, ![2, 512]⟩
abbrev S2x512x1 : Shape := ⟨3, ![2, 512, 1]⟩
abbrev S2x1 : Shape := ⟨2, ![2, 1]⟩
abbrev S2x1x1 : Shape := ⟨3, ![2, 1, 1]⟩
abbrev S1x1x1 : Shape := ⟨3, ![1, 1, 1]⟩
abbrev S_ : Shape := ⟨0, ![]⟩

abbrev nBuf : Space → Nat
  | .hbm => 11
  | .vmem => 12
  | .smem => 0
  | _ => 0

abbrev bufTy : (tb : Table) → Fin (tcTables nBuf tb) → BufTy
  | .hbm, ⟨0, _⟩ => ⟨S64x512x512, .f32⟩
  | .hbm, ⟨1, _⟩ => ⟨S64x512x512, .f32⟩
  | .hbm, ⟨2, _⟩ => ⟨S64x2x512x512, .f32⟩
  | .hbm, ⟨3, _⟩ => ⟨S64x512x512, .f32⟩
  | .hbm, ⟨4, _⟩ => ⟨S64x512x512, .f32⟩
  | .hbm, ⟨5, _⟩ => ⟨S1x1, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S2x512x512, .f32⟩
  | .local _ .vmem, ⟨1, _⟩ => ⟨S2x512x512, .f32⟩
  | .local _ .vmem, ⟨2, _⟩ => ⟨S2x512x512, .f32⟩
  | .local _ .vmem, ⟨3, _⟩ => ⟨S2x512x512, .f32⟩
  | .local _ .vmem, ⟨4, _⟩ => ⟨S2x2x512x512, .f32⟩
  | .local _ .vmem, ⟨5, _⟩ => ⟨S2x2x512x512, .f32⟩
  | .local _ .vmem, ⟨6, _⟩ => ⟨S2x512x512, .f32⟩
  | .local _ .vmem, ⟨7, _⟩ => ⟨S2x512x512, .f32⟩
  | .local _ .vmem, ⟨8, _⟩ => ⟨S2x512x512, .f32⟩
  | .local _ .vmem, ⟨9, _⟩ => ⟨S2x512x512, .f32⟩
  | .local _ .vmem, ⟨10, _⟩ => ⟨S1x1, .f32⟩
  | .local _ .vmem, ⟨11, _⟩ => ⟨S1x1, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x2x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S2x512x512_S2x512x512_0_0_0 : ∀ a, (![0, 0, 0] : Fin 3 → Nat) a + S2x512x512.size a ≤ S2x512x512.size a
  h_S2x512x512 : 0 < S2x512x512.numel
  inb_S2x2x512x512_S2x2x512x512_0_0_0_0 : ∀ a, (![0, 0, 0, 0] : Fin 4 → Nat) a + S2x2x512x512.size a ≤ S2x2x512x512.size a
  h_S2x2x512x512 : 0 < S2x2x512x512.numel
  slices_S2x2x512x512_o0_0_0_0_S2x1x512x512 : S2x2x512x512.Slices ![0, 0, 0, 0] S2x1x512x512
  shapeCasts_S2x1x512x512_S2x512x512 : S2x1x512x512.ShapeCasts S2x512x512
  slices_S2x2x512x512_o0_1_0_0_S2x1x512x512 : S2x2x512x512.Slices ![0, 1, 0, 0] S2x1x512x512
  reduces_S2x512x512_S2x512 : S2x512x512.Reduces [2] S2x512
  shapeCasts_S2x512_S2x512x1 : S2x512.ShapeCasts S2x512x1
  reduces_S2x512x1_S2x1 : S2x512x1.Reduces [1] S2x1
  shapeCasts_S2x1_S2x1x1 : S2x1.ShapeCasts S2x1x1
  reduces_S2x1x1_S1x1 : S2x1x1.Reduces [0] S1x1
  shapeCasts_S1x1_S1x1x1 : S1x1.ShapeCasts S1x1x1
  shapeCasts_S1x1x1_S1x1 : S1x1x1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x512.size a ≤ S64x512x512.size a
  hwx0_0 : ∀ i : grid0.Coords, EltTy.bits .f32 = 32 ∨ (Rect.block (s := S64x512x512) S2x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x512.size a ≤ S64x512x512.size a
  hwx0_1 : ∀ i : grid0.Coords, EltTy.bits .f32 = 32 ∨ (Rect.block (s := S64x512x512) S2x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x2x512x512.size a ≤ S64x2x512x512.size a
  hwx0_2 : ∀ i : grid0.Coords, EltTy.bits .f32 = 32 ∨ (Rect.block (s := S64x2x512x512) S2x2x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x512x512.size a ≤ S64x512x512.size a
  hwx0_3 : ∀ i : grid0.Coords, EltTy.bits .f32 = 32 ∨ (Rect.block (s := S64x512x512) S2x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x512x512.size a ≤ S64x512x512.size a
  hwx0_4 : ∀ i : grid0.Coords, EltTy.bits .f32 = 32 ∨ (Rect.block (s := S64x512x512) S2x512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

abbrev win0_0 : Pipeline.Window sig grid0 :=
  Pipeline.Window.ofSpec (Memref.whole main_arg0) S2x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x2x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S2x512x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x512x512 : Shape := ⟨3, ![64, 512, 512]⟩
abbrev S64x2x512x512 : Shape := ⟨4, ![64, 2, 512, 512]⟩
abbrev S64x1x512x512 : Shape := ⟨4, ![64, 1, 512, 512]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S64x512x512, .f32⟩
  | .hbm, ⟨1, _⟩ => ⟨S64x512x512, .f32⟩
  | .hbm, ⟨2, _⟩ => ⟨S64x2x512x512, .f32⟩
  | .hbm, ⟨3, _⟩ => ⟨S64x512x512, .f32⟩
  | .hbm, ⟨4, _⟩ => ⟨S64x1x512x512, .f32⟩
  | .hbm, ⟨5, _⟩ => ⟨S64x512x512, .f32⟩
  | .hbm, ⟨6, _⟩ => ⟨S64x1x512x512, .f32⟩
  | .hbm, ⟨7, _⟩ => ⟨S64x512x512, .f32⟩
  | .hbm, ⟨8, _⟩ => ⟨S_, .f32⟩
  | .hbm, ⟨9, _⟩ => ⟨S64x512x512, .f32⟩
  | .hbm, ⟨10, _⟩ => ⟨S64x512x512, .f32⟩
  | .hbm, ⟨11, _⟩ => ⟨S64x512x512, .f32⟩
  | .hbm, ⟨12, _⟩ => ⟨S_, .f32⟩
  | .hbm, ⟨13, _⟩ => ⟨S64x512x512, .f32⟩
  | .hbm, ⟨14, _⟩ => ⟨S64x512x512, .f32⟩
  | .hbm, ⟨15, _⟩ => ⟨S64x512x512, .f32⟩
  | .hbm, ⟨16, _⟩ => ⟨S64x512x512, .f32⟩
  | .hbm, ⟨17, _⟩ => ⟨S_, .f32⟩
  | .hbm, ⟨18, _⟩ => ⟨S64x512x512, .f32⟩
  | .hbm, ⟨19, _⟩ => ⟨S64x512x512, .f32⟩
  | .hbm, ⟨20, _⟩ => ⟨S64x512x512, .f32⟩
  | .hbm, ⟨21, _⟩ => ⟨S64x512x512, .f32⟩
  | .hbm, ⟨22, _⟩ => ⟨S64x512x512, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S64x512x512, .f32⟩
  | .hbm, ⟨27, _⟩ => ⟨S64x512x512, .f32⟩
  | .hbm, ⟨28, _⟩ => ⟨S_, .f32⟩
  | .hbm, ⟨29, _⟩ => ⟨S64x512x512, .f32⟩
  | .hbm, ⟨30, _⟩ => ⟨S64x512x512, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S64x512x512, .f32⟩
  | .hbm, ⟨35, _⟩ => ⟨S64x512x512, .f32⟩
  | .hbm, ⟨36, _⟩ => ⟨S_, .f32⟩
  | .hbm, ⟨37, _⟩ => ⟨S64x512x512, .f32⟩
  | .hbm, ⟨38, _⟩ => ⟨S64x512x512, .f32⟩
  | .hbm, ⟨39, _⟩ => ⟨S_, .f32⟩
  | .hbm, ⟨40, _⟩ => ⟨S64x512x512, .f32⟩
  | .hbm, ⟨41, _⟩ => ⟨S64x512x512, .f32⟩
  | .hbm, ⟨42, _⟩ => ⟨S64x512x512, .f32⟩
  | .hbm, ⟨43, _⟩ => ⟨S64x512x512, .f32⟩
  | .hbm, ⟨44, _⟩ => ⟨S_, .f32⟩
  | .hbm, ⟨45, _⟩ => ⟨S64x512x512, .f32⟩
  | .hbm, ⟨46, _⟩ => ⟨S64x512x512, .f32⟩
  | .hbm, ⟨47, _⟩ => ⟨S_, .f32⟩
  | .hbm, ⟨48, _⟩ => ⟨S64x512x512, .f32⟩
  | .hbm, ⟨49, _⟩ => ⟨S64x512x512, .f32⟩
  | .hbm, ⟨50, _⟩ => ⟨S64x512x512, .f32⟩
  | .hbm, ⟨51, _⟩ => ⟨S64x512x512, .f32⟩
  | .hbm, ⟨52, _⟩ => ⟨S64x512x512, .f32⟩
  | .hbm, ⟨53, _⟩ => ⟨S64x512x512, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v16 : Ref sig .tc := ⟨.hbm, 30, rfl⟩
abbrev main_cst_4 : Ref sig .tc := ⟨.hbm, 31, rfl⟩
abbrev main_cst_5 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v17 : Ref sig .tc := ⟨.hbm, 38, rfl⟩
abbrev main_cst_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_7 : Ref sig .tc := ⟨.hbm, 44, rfl⟩
abbrev main_v22 : Ref sig .tc := ⟨.hbm, 45, rfl⟩
abbrev main_v23 : Ref sig .tc := ⟨.hbm, 46, rfl⟩
abbrev main_cst_8 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_9 : Ref sig .tc := ⟨.hbm, 54, rfl⟩
abbrev main_v30 : Ref sig .tc := ⟨.hbm, 55, rfl⟩
abbrev main_v31 : Ref sig .tc := ⟨.hbm, 56, rfl⟩
abbrev main_cst_10 : Ref sig .tc := ⟨.hbm, 57, rfl⟩
abbrev main_v32 : Ref sig .tc := ⟨.hbm, 58, rfl⟩
abbrev main_v33 : Ref sig .tc := ⟨.hbm, 59, rfl⟩

abbrev nD : Nat := 1
abbrev τ : Topo := Topo.v7x

variable {F : FTy → Type} [FloatOps F]

class Facts₀ : Prop where
  slices_S64x2x512x512_S64x1x512x512_0_0_0_0 : S64x2x512x512.Slices ![0, 0, 0, 0] S64x1x512x512
  shapeCasts_S64x1x512x512_S64x512x512 : S64x1x512x512.ShapeCasts S64x512x512
  slices_S64x2x512x512_S64x1x512x512_0_1_0_0 : S64x2x512x512.Slices ![0, 1, 0, 0] S64x1x512x512
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel

variable [Facts₀]

class Facts : Prop extends Facts₀ where

variable [Facts]
-- ==== Proof.Spec.lean ====
/- The two results as functions of the four argument arrays, over the extended reals.

   At a pixel with prediction p, target g, transition entries t0 and t1 and mask weight k, the noisy-label probabilities
   are q0 = clip (t0 (1 - p) + (1 - t1) p) and q1 = clip ((1 - t0) (1 - p) + t1 p), clip x = min 1 (max 0 x), and the
   pixel's weighted term is (g log (q1 + ε) + (1 - g) log (q0 + ε)) k. The first result is - (Σ terms) / (Σ k) over all
   pixels; the second is q1 at every pixel. The float constants 1, 0 and ε stay the binary words both programs spell. -/
import Idealize.ShloMosaic.PureOps.Ideal
import Idealize.ShloMosaic.Lib.ValueIdx

noncomputable section

open scoped BigOperators

namespace Cert.Wce

open Idealize.ShloMosaic Idealize.ShloMosaic.ValueIdx

/-- The constants, as the words both programs carry. -/
def one : EReal := Ideal.ofBits .f32 0x3F800000#32
def nil : EReal := Ideal.ofBits .f32 0x00000000#32
def eps : EReal := Ideal.ofBits .f32 0x3727C5AC#32

/-- Clamping to [0, 1]: the lower bound first, then the upper. -/
def clip (x : EReal) : EReal := min one (max nil x)

/-- The probability of noisy label 0. -/
def q0 (p t0 t1 : EReal) : EReal := clip (t0 * (one - p) + (one - t1) * p)
/-- The probability of noisy label 1. -/
def q1 (p t0 t1 : EReal) : EReal := clip ((one - t0) * (one - p) + t1 * p)

/-- One pixel's weighted cross-entropy term. -/
def term (p g t0 t1 k : EReal) : EReal :=
  (g * Ideal.log (q1 p t0 t1 + eps) + (one - g) * Ideal.log (q0 p t0 t1 + eps)) * k

/-- The negated ratio of the two totals. -/
def ratio (num den : EReal) : EReal := Ideal.div (-num) den

/-- Pixel arrays and the transition array, n images at a time. -/
abbrev Pix (n : ℕ) : Shape := ⟨3, ![n, 512, 512]⟩
abbrev Tra (n : ℕ) : Shape := ⟨4, ![n, 2, 512, 512]⟩

/-- Transition entry e of a pixel. -/
abbrev tr {n : ℕ} (e : Fin 2) (i : (Pix n).Idx) : (Tra n).Idx := ix4 (i 0) e (i 1) (i 2)

/-- q1 at every pixel. -/
def P1 {n : ℕ} (pred : (Pix n).Idx → EReal) (T : (Tra n).Idx → EReal) : (Pix n).Idx → EReal :=
  fun i => q1 (pred i) (T (tr 0 i)) (T (tr 1 i))

/-- The weighted term at every pixel. -/
def W {n : ℕ} (pred tgt : (Pix n).Idx → EReal) (T : (Tra n).Idx → EReal) (mask : (Pix n).Idx → EReal) : (Pix n).Idx → EReal :=
  fun i => term (pred i) (tgt i) (T (tr 0 i)) (T (tr 1 i)) (mask i)

/-- The loss over the whole batch. -/
def loss (pred tgt : (Pix 64).Idx → EReal) (T : (Tra 64).Idx → EReal) (mask : (Pix 64).Idx → EReal) : EReal :=
  ratio (∑ i, W pred tgt T mask i) (∑ i, mask i)

end Cert.Wce

end
-- ==== Proof.RefValue.lean ====
/- The reference computes the two result functions.

   Read one operation at a time, the reference's clamped probabilities at a pixel are q0 and q1 of that pixel's
   prediction and transition entries (its two slices of the transition array, reshaped, read entry 0 and entry 1 of
   the pixel), its weighted term is the pixel's term, and its two full sums are the sums over all pixels from the zero
   word; so its first result is the loss and its second is q1 at every pixel. -/
import proofs.«131891_j4552665333886_1_alg».proof.Proof.Gen.ReferenceIdeal.Run
import proofs.«131891_j4552665333886_1_alg».proof.Proof.Gen.ReferenceIdeal.Read
import proofs.«131891_j4552665333886_1_alg».proof.Proof.Spec

noncomputable section

open scoped BigOperators

namespace Cert.ReferenceIdeal.RefValue

open Cert.ReferenceIdeal Cert.ReferenceIdeal.Read Idealize.ShloMosaic Idealize.ShloMosaic.ValueIdx Cert.Wce

/-- The first slice, reshaped, reads transition entry 0 of the pixel. -/
theorem entry0_idx (i : S64x512x512.Idx) : idx_main_v0 (idx_main_v1 i) = tr 0 i := by
  have h0 : (i 0).val < 64 := (i 0).isLt
  have h1 : (i 1).val < 512 := (i 1).isLt
  have h2 : (i 2).val < 512 := (i 2).isLt
  funext a
  apply Fin.ext
  match a with
  | ⟨0, _⟩ => show (((i 0).val * 512 + (i 1).val) * 512 + (i 2).val) / 262144 = (i 0).val; omega
  | ⟨1, _⟩ => rfl
  | ⟨2, _⟩ => show (((i 0).val * 512 + (i 1).val) * 512 + (i 2).val) / 512 % 512 = (i 1).val; omega
  | ⟨3, _⟩ => show (((i 0).val * 512 + (i 1).val) * 512 + (i 2).val) % 512 = (i 2).val; omega

/-- The second slice, reshaped, reads transition entry 1 of the pixel. -/
theorem entry1_idx (i : S64x512x512.Idx) : idx_main_v2 (idx_main_v3 i) = tr 1 i := by
  have h0 : (i 0).val < 64 := (i 0).isLt
  have h1 : (i 1).val < 512 := (i 1).isLt
  have h2 : (i 2).val < 512 := (i 2).isLt
  funext a
  apply Fin.ext
  match a with
  | ⟨0, _⟩ => show (((i 0).val * 512 + (i 1).val) * 512 + (i 2).val) / 262144 = (i 0).val; omega
  | ⟨1, _⟩ => rfl
  | ⟨2, _⟩ => show (((i 0).val * 512 + (i 1).val) * 512 + (i 2).val) / 512 % 512 = (i 1).val; omega
  | ⟨3, _⟩ => show (((i 0).val * 512 + (i 1).val) * 512 + (i 2).val) % 512 = (i 2).val; omega

theorem entry0 (T : S64x2x512x512.Idx → EReal) (i : S64x512x512.Idx) : val_main_v1 (F := Ideal) T i = T (tr 0 i) := by
  rw [val_main_v1_apply, val_main_v0_apply, entry0_idx]

theorem entry1 (T : S64x2x512x512.Idx → EReal) (i : S64x512x512.Idx) : val_main_v3 (F := Ideal) T i = T (tr 1 i) := by
  rw [val_main_v3_apply, val_main_v2_apply, entry1_idx]

/-- The first clamp is q0 of the pixel. -/
theorem clamp0 (pred : S64x512x512.Idx → EReal) (T : S64x2x512x512.Idx → EReal) (i : S64x512x512.Idx) :
    val_main_v16 (F := Ideal) pred T i = q0 (pred i) (T (tr 0 i)) (T (tr 1 i)) := by
  rw [val_main_v16_apply, val_main_call0_v4_apply, val_main_call0_v2_apply, val_main_call0_v1_apply, val_main_v10_apply,
    val_main_v6_apply, val_main_v9_apply, val_main_v8_apply, val_main_v5_apply, val_main_v4_apply, val_main_v7_apply,
    entry0, entry1]
  rfl

/-- The second clamp is q1 of the pixel. -/
theorem clamp1 (pred : S64x512x512.Idx → EReal) (T : S64x2x512x512.Idx → EReal) (i : S64x512x512.Idx) :
    val_main_v17 (F := Ideal) pred T i = q1 (pred i) (T (tr 0 i)) (T (tr 1 i)) := by
  rw [val_main_v17_apply, val_main_call1_v4_apply, val_main_call1_v2_apply, val_main_call1_v1_apply, val_main_v15_apply,
    val_main_v13_apply, val_main_v14_apply, val_main_v12_apply, val_main_v5_apply, val_main_v4_apply, val_main_v11_apply,
    entry0, entry1]
  rfl

/-- The second result is q1 at every pixel. -/
theorem second_eq (pred : S64x512x512.Idx → EReal) (T : S64x2x512x512.Idx → EReal) :
    val_main_v17 (F := Ideal) pred T = P1 pred T :=
  funext fun i => clamp1 pred T i

/-- The weighted term at a pixel. -/
theorem weighted (pred tgt : S64x512x512.Idx → EReal) (T : S64x2x512x512.Idx → EReal) (mask : S64x512x512.Idx → EReal)
    (i : S64x512x512.Idx) : val_main_v29 (F := Ideal) pred tgt T mask i = W pred tgt T mask i := by
  rw [val_main_v29_apply, val_main_v28_apply, val_main_v21_apply, val_main_v27_apply, val_main_v20_apply, val_main_v26_apply,
    val_main_v19_apply, val_main_v25_apply, val_main_v23_apply, val_main_v18_apply, val_main_v24_apply, val_main_v22_apply,
    clamp0, clamp1]
  rfl

/-- The first result is the loss. -/
theorem first_eq (pred tgt : S64x512x512.Idx → EReal) (T : S64x2x512x512.Idx → EReal) (mask : S64x512x512.Idx → EReal) :
    val_main_v33 (F := Ideal) pred tgt T mask = fun _ => loss pred tgt T mask := by
  funext i
  rw [val_main_v33_apply, val_main_v31_apply, val_main_v30_apply, val_main_v32_apply]
  have hz : ∀ j, val_main_cst_9 (F := Ideal) j = 0 := fun _ => Ideal.ofBits_zero_f32
  have hz' : ∀ j, val_main_cst_10 (F := Ideal) j = 0 := fun _ => Ideal.ofBits_zero_f32
  rw [hz, hz', zero_add, zero_add]
  simp only [weighted]
  rfl

end Cert.ReferenceIdeal.RefValue

end
-- ==== Proof.Pieces.lean ====
/- What one grid point leaves in the three output buffers, as pure functions of the point's input blocks.

   The body stores the clamped probability block whole; it adds the block's weighted sum to the numerator cell and the
   block's mask sum to the denominator cell, after resetting both cells to the zero word at the first point. Each
   buffer's final contents is therefore the last store's value, with a cell read back after its reset holding the
   reset's value. -/
import proofs.«131891_j4552665333886_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- At the first point the probability block is the second clamp of the prediction and transition blocks. -/
theorem first_prob (c : Dev nD) (i : grid0.Coords) (a1 : Memref sig .tc .vmem S2x512x512 .f32) (h1 : a1.IsWhole) (a2 : Memref sig .tc .vmem S2x512x512 .f32) (h2 : a2.IsWhole) (a3 : Memref sig .tc .vmem S2x2x512x512 .f32) (h3 : a3.IsWhole) (a4 : Memref sig .tc .vmem S2x512x512 .f32) (h4 : a4.IsWhole) (a5 : Memref sig .tc .vmem S2x512x512 .f32) (h5 : a5.IsWhole) (a6 : Memref sig .tc .vmem S1x1 .f32) (h6 : a6.IsWhole) (a7 : Memref sig .tc .vmem S1x1 .f32) (h7 : a7.IsWhole) (hc : cond0_0 i)
    (x0 x1 : Vec F S2x512x512 .f32) (x2 : Vec F S2x2x512x512 .f32) (x3 : Vec F S2x512x512 .f32) :
    out0_A_4 c i a1 h1 a2 h2 a3 h3 a4 h4 a5 h5 a6 h6 a7 h7 hc x0 x1 x2 x3 = k0_pay9 x0 x2 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  rw [View.canon_unit_zero hz3]
  simp only [View.readAt_eq_ld, h1.read_unread, h2.read_unread, h3.read_unread, h4.read_unread, h6.read_unread, h7.read_unread,
    View.ld_unit_zero (S := S2x512x512) hz3, View.ld_unit_zero (S := S2x2x512x512) hz4, View.ld_unit_zero (S := S1x1) hz2]

/-- At the first point the numerator cell is reset to the zero word and then gains the block's weighted sum. -/
theorem first_num (c : Dev nD) (i : grid0.Coords) (a1 : Memref sig .tc .vmem S2x512x512 .f32) (h1 : a1.IsWhole) (a2 : Memref sig .tc .vmem S2x512x512 .f32) (h2 : a2.IsWhole) (a3 : Memref sig .tc .vmem S2x2x512x512 .f32) (h3 : a3.IsWhole) (a4 : Memref sig .tc .vmem S2x512x512 .f32) (h4 : a4.IsWhole) (a5 : Memref sig .tc .vmem S2x512x512 .f32) (h5 : a5.IsWhole) (a6 : Memref sig .tc .vmem S1x1 .f32) (h6 : a6.IsWhole) (a7 : Memref sig .tc .vmem S1x1 .f32) (h7 : a7.IsWhole) (hc : cond0_0 i)
    (x0 x1 : Vec F S2x512x512 .f32) (x2 : Vec F S2x2x512x512 .f32) (x3 : Vec F S2x512x512 .f32) :
    out0_A_5 c i a1 h1 a2 h2 a3 h3 a4 h4 a5 h5 a6 h6 a7 h7 hc x0 x1 x2 x3 = k0_pay1 x1 x3 (k0_pay8 x0 x2) (k0_pay10 x0 x1 x2) (k0_pay3 (F := F)) := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread, h4.read_unread, h6.read_unread, h7.read_unread,
    View.ld_unit_zero (S := S2x512x512) hz3, View.ld_unit_zero (S := S2x2x512x512) hz4, View.ld_unit_zero (S := S1x1) hz2]

/-- At the first point the denominator cell is reset to the zero word and then gains the block's mask sum. -/
theorem first_den (c : Dev nD) (i : grid0.Coords) (a1 : Memref sig .tc .vmem S2x512x512 .f32) (h1 : a1.IsWhole) (a2 : Memref sig .tc .vmem S2x512x512 .f32) (h2 : a2.IsWhole) (a3 : Memref sig .tc .vmem S2x2x512x512 .f32) (h3 : a3.IsWhole) (a4 : Memref sig .tc .vmem S2x512x512 .f32) (h4 : a4.IsWhole) (a5 : Memref sig .tc .vmem S2x512x512 .f32) (h5 : a5.IsWhole) (a6 : Memref sig .tc .vmem S1x1 .f32) (h6 : a6.IsWhole) (a7 : Memref sig .tc .vmem S1x1 .f32) (h7 : a7.IsWhole) (hc : cond0_0 i)
    (x0 x1 : Vec F S2x512x512 .f32) (x2 : Vec F S2x2x512x512 .f32) (x3 : Vec F S2x512x512 .f32) :
    out0_A_6 c i a1 h1 a2 h2 a3 h3 a4 h4 a5 h5 a6 h6 a7 h7 hc x0 x1 x2 x3 = k0_pay2 x3 (k0_pay4 (F := F)) := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread, h4.read_unread, h6.read_unread, h7.read_unread,
    View.ld_unit_zero (S := S2x512x512) hz3, View.ld_unit_zero (S := S2x2x512x512) hz4, View.ld_unit_zero (S := S1x1) hz2]

/-- At a later point the probability block is the same function of that point's blocks. -/
theorem later_prob (c : Dev nD) (i : grid0.Coords) (a1 : Memref sig .tc .vmem S2x512x512 .f32) (h1 : a1.IsWhole) (a2 : Memref sig .tc .vmem S2x512x512 .f32) (h2 : a2.IsWhole) (a3 : Memref sig .tc .vmem S2x2x512x512 .f32) (h3 : a3.IsWhole) (a4 : Memref sig .tc .vmem S2x512x512 .f32) (h4 : a4.IsWhole) (a5 : Memref sig .tc .vmem S2x512x512 .f32) (h5 : a5.IsWhole) (a6 : Memref sig .tc .vmem S1x1 .f32) (h6 : a6.IsWhole) (a7 : Memref sig .tc .vmem S1x1 .f32) (h7 : a7.IsWhole) (hc : ¬cond0_0 i)
    (x0 x1 : Vec F S2x512x512 .f32) (x2 : Vec F S2x2x512x512 .f32) (x3 : Vec F S2x512x512 .f32) (xo5 xo6 : Vec F S1x1 .f32) :
    out0_B_4 c i a1 h1 a2 h2 a3 h3 a4 h4 a5 h5 a6 h6 a7 h7 hc x0 x1 x2 x3 xo5 xo6 = k0_pay9 x0 x2 := by
  unfold out0_B_4
  rw [View.read_writes_eq_canon _ _ _ (cover0_B_4 c i a1 h1 a2 h2 a3 h3 a4 h4 a5 h5 a6 h6 a7 h7 hc x0 x1 x2 x3 xo5 xo6)]
  unfold kernelRun0_B
  dsimp only
  sl_unfold_words
  rw [View.canon_unit_zero hz3]
  simp only [View.readAt_eq_ld, h1.read_unread, h2.read_unread, h3.read_unread, h4.read_unread, h6.read_unread, h7.read_unread,
    View.ld_unit_zero (S := S2x512x512) hz3, View.ld_unit_zero (S := S2x2x512x512) hz4, View.ld_unit_zero (S := S1x1) hz2]

/-- At a later point the numerator cell gains the block's weighted sum over what the point before left. -/
theorem later_num (c : Dev nD) (i : grid0.Coords) (a1 : Memref sig .tc .vmem S2x512x512 .f32) (h1 : a1.IsWhole) (a2 : Memref sig .tc .vmem S2x512x512 .f32) (h2 : a2.IsWhole) (a3 : Memref sig .tc .vmem S2x2x512x512 .f32) (h3 : a3.IsWhole) (a4 : Memref sig .tc .vmem S2x512x512 .f32) (h4 : a4.IsWhole) (a5 : Memref sig .tc .vmem S2x512x512 .f32) (h5 : a5.IsWhole) (a6 : Memref sig .tc .vmem S1x1 .f32) (h6 : a6.IsWhole) (a7 : Memref sig .tc .vmem S1x1 .f32) (h7 : a7.IsWhole) (hc : ¬cond0_0 i)
    (x0 x1 : Vec F S2x512x512 .f32) (x2 : Vec F S2x2x512x512 .f32) (x3 : Vec F S2x512x512 .f32) (xo5 xo6 : Vec F S1x1 .f32) :
    out0_B_5 c i a1 h1 a2 h2 a3 h3 a4 h4 a5 h5 a6 h6 a7 h7 hc x0 x1 x2 x3 xo5 xo6 = k0_pay1 x1 x3 (k0_pay8 x0 x2) (k0_pay10 x0 x1 x2) xo5 := by
  unfold out0_B_5
  rw [View.read_writes_eq_canon _ _ _ (cover0_B_5 c i a1 h1 a2 h2 a3 h3 a4 h4 a5 h5 a6 h6 a7 h7 hc x0 x1 x2 x3 xo5 xo6)]
  unfold kernelRun0_B
  dsimp only
  sl_unfold_words
  rw [View.canon_unit_zero hz2]
  simp only [View.readAt_eq_ld, h1.read_unread, h2.read_unread, h3.read_unread, h4.read_unread, h6.read_unread, h7.read_unread,
    View.ld_unit_zero (S := S2x512x512) hz3, View.ld_unit_zero (S := S2x2x512x512) hz4, View.ld_unit_zero (S := S1x1) hz2]

/-- At a later point the denominator cell gains the block's mask sum over what the point before left. -/
theorem later_den (c : Dev nD) (i : grid0.Coords) (a1 : Memref sig .tc .vmem S2x512x512 .f32) (h1 : a1.IsWhole) (a2 : Memref sig .tc .vmem S2x512x512 .f32) (h2 : a2.IsWhole) (a3 : Memref sig .tc .vmem S2x2x512x512 .f32) (h3 : a3.IsWhole) (a4 : Memref sig .tc .vmem S2x512x512 .f32) (h4 : a4.IsWhole) (a5 : Memref sig .tc .vmem S2x512x512 .f32) (h5 : a5.IsWhole) (a6 : Memref sig .tc .vmem S1x1 .f32) (h6 : a6.IsWhole) (a7 : Memref sig .tc .vmem S1x1 .f32) (h7 : a7.IsWhole) (hc : ¬cond0_0 i)
    (x0 x1 : Vec F S2x512x512 .f32) (x2 : Vec F S2x2x512x512 .f32) (x3 : Vec F S2x512x512 .f32) (xo5 xo6 : Vec F S1x1 .f32) :
    out0_B_6 c i a1 h1 a2 h2 a3 h3 a4 h4 a5 h5 a6 h6 a7 h7 hc x0 x1 x2 x3 xo5 xo6 = k0_pay2 x3 xo6 := by
  unfold out0_B_6
  rw [View.read_writes_eq_canon _ _ _ (cover0_B_6 c i a1 h1 a2 h2 a3 h3 a4 h4 a5 h5 a6 h6 a7 h7 hc x0 x1 x2 x3 xo5 xo6)]
  unfold kernelRun0_B
  dsimp only
  sl_unfold_words
  rw [View.canon_unit_zero hz2]
  simp only [View.readAt_eq_ld, h1.read_unread, h2.read_unread, h3.read_unread, h4.read_unread, h6.read_unread, h7.read_unread,
    View.ld_unit_zero (S := S2x512x512) hz3, View.ld_unit_zero (S := S2x2x512x512) hz4, View.ld_unit_zero (S := S1x1) hz2]

end Cert.KernelIdeal.Pieces

end
-- ==== Proof.LibRank3.lean ====
/- Rank-3 vectors read by coordinates.

   A sum over a rank-3 index set is the triple sum over its coordinates. A one-axis sum of a rank-3 vector, over the
   last, the middle or the first axis, read at an index of the rank-2 result, is the sum over that axis's coordinate.
   A rank-2 vector viewed with a trailing unit axis, and a rank-3 vector with a trailing unit axis viewed without it,
   read the same entry. Every shape fact is a variable, so a lemma applies whatever proof term a program carries. -/
import Idealize.ShloMosaic.Lib.Pipeline.Value
import Idealize.ShloMosaic.Lib.ValueIdx
import Idealize.ShloMosaic.PureOps.Ideal.Laws

noncomputable section

open scoped BigOperators

namespace Cert.Rank3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

variable {α : Type}

/-- [a, b] viewed as [a, b, 1] reads, at (r, k, u), the operand at (r, k). -/
theorem shapeCast_ab_ab1_apply {a b : ℕ} (x : (⟨2, ![a, b]⟩ : Shape).Idx → α)
    (h : (⟨2, ![a, b]⟩ : Shape).ShapeCasts ⟨3, ![a, b, 1]⟩) (r : Fin a) (k : Fin b) (u : Fin 1) :
    shapeCast ⟨3, ![a, b, 1]⟩ x h (ix3 r k u) = x (ix2 r k) :=
  shapeCast_apply x h _ _ (by
    have hu : u.val = 0 := by omega
    rw [Shape.rowMajor_val_three, Shape.rowMajor_val_two]
    show r.val * b + k.val = (r.val * b + k.val) * 1 + u.val
    rw [hu, Nat.mul_one, Nat.add_zero])

/-- [a, b, 1] viewed as [a, b] reads, at (r, k), the operand at (r, k, 0). -/
theorem shapeCast_ab1_ab_apply {a b : ℕ} (x : (⟨3, ![a, b, 1]⟩ : Shape).Idx → α)
    (h : (⟨3, ![a, b, 1]⟩ : Shape).ShapeCasts ⟨2, ![a, b]⟩) (r : Fin a) (k : Fin b) :
    shapeCast ⟨2, ![a, b]⟩ x h (ix2 r k) = x (ix3 r k (0 : Fin 1)) :=
  shapeCast_apply x h _ _ (by
    rw [Shape.rowMajor_val_three, Shape.rowMajor_val_two]
    show (r.val * b + k.val) * 1 + 0 = r.val * b + k.val
    rw [Nat.mul_one, Nat.add_zero])

/-- The index over (r, k) with q inserted on the last of three axes is (r, k, q). -/
theorem lift_last3 {a b c : ℕ} (h : (⟨3, ![a, b, c]⟩ : Shape).Reduces [2] ⟨2, ![a, b]⟩) (r : Fin a) (k : Fin b) (q : Fin c) :
    h.lift (ix2 r k) q = ix3 r k q :=
  funext fun ax => Fin.ext (by match ax with | ⟨0, _⟩ => rfl | ⟨1, _⟩ => rfl | ⟨2, _⟩ => rfl)

/-- The index over (r, q) with k inserted on the middle of three axes is (r, k, q). -/
theorem lift_mid3 {a b c : ℕ} (h : (⟨3, ![a, b, c]⟩ : Shape).Reduces [1] ⟨2, ![a, c]⟩) (r : Fin a) (k : Fin b) (q : Fin c) :
    h.lift (ix2 r q) k = ix3 r k q :=
  funext fun ax => Fin.ext (by match ax with | ⟨0, _⟩ => rfl | ⟨1, _⟩ => rfl | ⟨2, _⟩ => rfl)

/-- The index over (k, q) with r inserted on the first of three axes is (r, k, q). -/
theorem lift_first3 {a b c : ℕ} (h : (⟨3, ![a, b, c]⟩ : Shape).Reduces [0] ⟨2, ![b, c]⟩) (r : Fin a) (k : Fin b) (q : Fin c) :
    h.lift (ix2 k q) r = ix3 r k q :=
  funext fun ax => Fin.ext (by match ax with | ⟨0, _⟩ => rfl | ⟨1, _⟩ => rfl | ⟨2, _⟩ => rfl)

variable {φ : FTy}

/-- A sum over the last of three axes, at (r, k): the sum over q of the source at (r, k, q). -/
theorem sum_last3_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (r : Fin a) (k : Fin b) :
    multiReduction .add [2] ⟨2, ![a, b]⟩ src acc h hφ hacc (ix2 r k) = ∑ q : Fin c, src (ix3 r k q) :=
  (Ideal.multiReduction_add_single src acc h hφ hacc (ix2 r k)).trans
    (Finset.sum_congr rfl fun q _ => congrArg src (lift_last3 h r k q))

/-- A sum over the middle of three axes, at (r, q): the sum over k of the source at (r, k, q). -/
theorem sum_mid3_apply {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (r : Fin a) (q : Fin c) :
    multiReduction .add [1] ⟨2, ![a, c]⟩ src acc h hφ hacc (ix2 r q) = ∑ k : Fin b, src (ix3 r k q) :=
  (Ideal.multiReduction_add_single src acc h hφ hacc (ix2 r q)).trans
    (Finset.sum_congr rfl fun k _ => congrArg src (lift_mid3 h r k q))

/-- A sum over the first of three axes, at (k, q): the sum over r of the source at (r, k, q). -/
theorem sum_first3_apply {a b c : ℕ} (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (k : Fin b) (q : Fin c) :
    multiReduction .add [0] ⟨2, ![b, c]⟩ src acc h hφ hacc (ix2 k q) = ∑ r : Fin a, src (ix3 r k q) :=
  (Ideal.multiReduction_add_single src acc h hφ hacc (ix2 k q)).trans
    (Finset.sum_congr rfl fun r _ => congrArg src (lift_first3 h r k q))

end Cert.Rank3

end
-- ==== Proof.BlockValue.lean ====
/- One grid point's stored values, read at an index over the extended reals.

   The probability block at a pixel is q1 of the pixel's prediction and transition entries; the value added to the
   numerator cell is the sum over the block's pixels of their weighted terms; the value added to the denominator cell
   is the sum of the block's mask weights. The three nested one-axis sums with their unit-axis views are one sum over
   the block's pixels. -/
import proofs.«131891_j4552665333886_1_alg».proof.Proof.Gen.KernelIdeal.Skeleton
import proofs.«131891_j4552665333886_1_alg».proof.Proof.Spec
import proofs.«131891_j4552665333886_1_alg».proof.Proof.LibRank3
import Idealize.ShloMosaic.Lib.Pipeline.Value
import Idealize.ShloMosaic.Lib.ValueIdx
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx Cert.Wce Cert.Rank3

/-- The first slice of the transition block, viewed without its unit axis, reads entry 0 of the pixel. -/
theorem entry0 (T : Vec Ideal S2x2x512x512 .f32) (j : S2x512x512.Idx) : k0_pay5 (F := Ideal) T j = T (tr 0 j) := by
  have h0 : (j 0).val < 2 := (j 0).isLt
  have h1 : (j 1).val < 512 := (j 1).isLt
  have h2 : (j 2).val < 512 := (j 2).isLt
  unfold k0_pay5
  refine (shapeCast_apply (s := S2x1x512x512) (t := S2x512x512) _ _ j (ix4 (j 0) (0 : Fin 1) (j 1) (j 2)) ?_).trans ?_
  · rw [Shape.rowMajor_val_four, Shape.rowMajor_val_three]
    show (((j 0).val * 1 + 0) * 512 + (j 1).val) * 512 + (j 2).val = ((j 0).val * 512 + (j 1).val) * 512 + (j 2).val
    omega
  · exact extractStridedSlice_apply ![0, 0, 0, 0] T _ _ (tr 0 j) (fun a => match a with
      | ⟨0, _⟩ => by show (j 0).val = 0 + (j 0).val; omega
      | ⟨1, _⟩ => by show 0 = 0 + 0; omega
      | ⟨2, _⟩ => by show (j 1).val = 0 + (j 1).val; omega
      | ⟨3, _⟩ => by show (j 2).val = 0 + (j 2).val; omega)

/-- The second slice reads entry 1 of the pixel. -/
theorem entry1 (T : Vec Ideal S2x2x512x512 .f32) (j : S2x512x512.Idx) : k0_pay6 (F := Ideal) T j = T (tr 1 j) := by
  have h0 : (j 0).val < 2 := (j 0).isLt
  have h1 : (j 1).val < 512 := (j 1).isLt
  have h2 : (j 2).val < 512 := (j 2).isLt
  unfold k0_pay6
  refine (shapeCast_apply (s := S2x1x512x512) (t := S2x512x512) _ _ j (ix4 (j 0) (0 : Fin 1) (j 1) (j 2)) ?_).trans ?_
  · rw [Shape.rowMajor_val_four, Shape.rowMajor_val_three]
    show (((j 0).val * 1 + 0) * 512 + (j 1).val) * 512 + (j 2).val = ((j 0).val * 512 + (j 1).val) * 512 + (j 2).val
    omega
  · exact extractStridedSlice_apply ![0, 1, 0, 0] T _ _ (tr 1 j) (fun a => match a with
      | ⟨0, _⟩ => by show (j 0).val = 0 + (j 0).val; omega
      | ⟨1, _⟩ => by show 1 = 1 + 0; omega
      | ⟨2, _⟩ => by show (j 1).val = 0 + (j 1).val; omega
      | ⟨3, _⟩ => by show (j 2).val = 0 + (j 2).val; omega)

/-- The first clamp at a pixel is q0. -/
theorem prob0_apply (pred : Vec Ideal S2x512x512 .f32) (T : Vec Ideal S2x2x512x512 .f32) (j : S2x512x512.Idx) :
    k0_pay8 (F := Ideal) pred T j = q0 (pred j) (T (tr 0 j)) (T (tr 1 j)) := by
  show min one (max nil (k0_pay5 (F := Ideal) T j * (one - pred j) + (one - k0_pay6 (F := Ideal) T j) * pred j)) = _
  rw [entry0, entry1]
  rfl

/-- The second clamp at a pixel is q1: the stored probability block is q1 at every pixel of the block. -/
theorem prob1_apply (pred : Vec Ideal S2x512x512 .f32) (T : Vec Ideal S2x2x512x512 .f32) (j : S2x512x512.Idx) :
    k0_pay9 (F := Ideal) pred T j = q1 (pred j) (T (tr 0 j)) (T (tr 1 j)) := by
  show min one (max nil ((one - k0_pay5 (F := Ideal) T j) * (one - pred j) + k0_pay6 (F := Ideal) T j * pred j)) = _
  rw [entry0, entry1]
  rfl

theorem prob1_eq (pred : Vec Ideal S2x512x512 .f32) (T : Vec Ideal S2x2x512x512 .f32) :
    k0_pay9 (F := Ideal) pred T = P1 (n := 2) pred T :=
  funext fun j => prob1_apply pred T j

/-- The three nested one-axis sums of a block, with their unit-axis views, are the sum over the block's pixels. -/
theorem nested_sum (v : FVec Ideal S2x512x512 .f32)
    (r1 : S2x512x512.Reduces [2] S2x512) (c1 : S2x512.ShapeCasts S2x512x1)
    (r2 : S2x512x1.Reduces [1] S2x1) (c2 : S2x1.ShapeCasts S2x1x1)
    (r3 : S2x1x1.Reduces [0] S1x1) (c3 : S1x1.ShapeCasts S1x1x1) (c4 : S1x1x1.ShapeCasts S1x1)
    (hφ : FKind.Formats .f32) (hacc : (0x00000000#32 : BitVec 32) = 0x00000000#32) :
    shapeCast S1x1 (shapeCast S1x1x1 (multiReduction .add [0] S1x1 (shapeCast S2x1x1 (multiReduction .add [1] S2x1
      (shapeCast S2x512x1 (multiReduction .add [2] S2x512 v 0x00000000#32 r1 hφ hacc) c1) 0x00000000#32 r2 hφ hacc) c2)
      0x00000000#32 r3 hφ hacc) c3) c4 (ix2 (0 : Fin 1) (0 : Fin 1)) = ∑ j, v j :=
  (shapeCast_ab1_ab_apply _ c4 (0 : Fin 1) (0 : Fin 1)).trans <|
    (shapeCast_ab_ab1_apply _ c3 (0 : Fin 1) (0 : Fin 1) (0 : Fin 1)).trans <|
    (sum_first3_apply _ 0x00000000#32 r3 hφ hacc (0 : Fin 1) (0 : Fin 1)).trans <|
    (Finset.sum_congr rfl fun b _ =>
      (shapeCast_ab_ab1_apply _ c2 b (0 : Fin 1) (0 : Fin 1)).trans <|
      (sum_mid3_apply _ 0x00000000#32 r2 hφ hacc b (0 : Fin 1)).trans <|
      Finset.sum_congr rfl fun h _ =>
        (shapeCast_ab_ab1_apply _ c1 b h (0 : Fin 1)).trans (sum_last3_apply v 0x00000000#32 r1 hφ hacc b h)).trans
    (sum_idx3 v).symm

/-- A one-cell vector is its one entry. -/
theorem cell_ext {f g : S1x1.Idx → EReal} (h : f (ix2 (0 : Fin 1) (0 : Fin 1)) = g (ix2 (0 : Fin 1) (0 : Fin 1))) : f = g := by
  funext j
  have e : j = ix2 (0 : Fin 1) (0 : Fin 1) := by
    funext a
    apply Fin.ext
    match a with
    | ⟨0, _⟩ => have := idx2_lt0 j; show (j 0).val = 0; omega
    | ⟨1, _⟩ => have := idx2_lt1 j; show (j 1).val = 0; omega
  rw [e, h]

/-- The weighted block at a pixel is the pixel's term. -/
theorem weighted_apply (pred tgt : Vec Ideal S2x512x512 .f32) (T : Vec Ideal S2x2x512x512 .f32)
    (mask : Vec Ideal S2x512x512 .f32) (j : S2x512x512.Idx) :
    mulf (addf (k0_pay10 (F := Ideal) pred tgt T) (mulf (subf (broadcast S2x512x512 (Scalar.ofBits .f32 0x3F800000#32)) tgt)
      (log (addf (k0_pay8 (F := Ideal) pred T) (broadcast S2x512x512 (Scalar.ofBits .f32 0x3727C5AC#32)))))) mask j
      = W (n := 2) pred tgt T mask j := by
  show (tgt j * Ideal.log (k0_pay9 (F := Ideal) pred T j + eps) + (one - tgt j) * Ideal.log (k0_pay8 (F := Ideal) pred T j + eps)) * mask j = _
  rw [prob0_apply, prob1_apply]
  rfl

/-- The numerator cell after a point: what it held plus the sum of the block's terms. -/
theorem num_apply (pred tgt : Vec Ideal S2x512x512 .f32) (T : Vec Ideal S2x2x512x512 .f32)
    (mask : Vec Ideal S2x512x512 .f32) (acc : Vec Ideal S1x1 .f32) :
    k0_pay1 (F := Ideal) tgt mask (k0_pay8 pred T) (k0_pay10 pred tgt T) acc (ix2 (0 : Fin 1) (0 : Fin 1))
      = acc (ix2 (0 : Fin 1) (0 : Fin 1)) + ∑ j, W (n := 2) pred tgt T mask j := by
  unfold k0_pay1
  dsimp only
  rw [addf_apply, shapeCast_self, nested_sum]
  congr 1
  exact Finset.sum_congr rfl fun j _ => weighted_apply pred tgt T mask j

/-- The denominator cell after a point: what it held plus the sum of the block's mask weights. -/
theorem den_apply (mask : Vec Ideal S2x512x512 .f32) (acc : Vec Ideal S1x1 .f32) :
    k0_pay2 (F := Ideal) mask acc (ix2 (0 : Fin 1) (0 : Fin 1)) = acc (ix2 (0 : Fin 1) (0 : Fin 1)) + ∑ j, mask j := by
  unfold k0_pay2
  dsimp only
  rw [addf_apply, shapeCast_self, nested_sum]

/-- The reset value of either cell is zero. -/
theorem reset_num : k0_pay3 (F := Ideal) (ix2 (0 : Fin 1) (0 : Fin 1)) = 0 := Ideal.ofBits_zero_f32
theorem reset_den : k0_pay4 (F := Ideal) (ix2 (0 : Fin 1) (0 : Fin 1)) = 0 := Ideal.ofBits_zero_f32

end Cert.KernelIdeal.BlockValue

end
-- ==== Proof.LibBlockSum.lean ====
/- Sums over consecutive blocks, and a running sum as a finite sum.

   A sum over B blocks of R consecutive positions each is the sum over all B · R positions; a sequence that starts at
   `0 + c 0` and adds `c (n + 1)` at each step is, after step n, the sum of `c` over the first n + 1 steps. Both hold in
   any commutative additive monoid (the extended reals are one: regrouping a sum needs no finiteness). -/
import Mathlib.Algebra.BigOperators.Group.Finset.Basic
import Mathlib.Algebra.BigOperators.Fin
import Mathlib.Data.Fintype.BigOperators

namespace Cert.BlockSum

open scoped BigOperators

/-- Position `r` of block `t`, among all `N = B · R` positions. -/
def pos {B R N : Nat} (hN : B * R = N) (t : Fin B) (r : Fin R) : Fin N :=
  ⟨R * t.val + r.val, by
    have h1 := t.isLt
    have h2 := r.isLt
    have h3 : R * t.val + r.val < R * (t.val + 1) := by rw [Nat.mul_succ]; omega
    have h4 : R * (t.val + 1) ≤ R * B := Nat.mul_le_mul_left R h1
    rw [← hN, Nat.mul_comm B R]
    omega⟩

/-- The sum over the blocks of the sums over a block's positions is the sum over all positions. -/
theorem sum_blocks {M : Type*} [AddCommMonoid M] {B R N : Nat} (hN : B * R = N) (f : Fin N → M) :
    ∑ t : Fin B, ∑ r : Fin R, f (pos hN t r) = ∑ n : Fin N, f n := by
  subst hN
  rw [← Fintype.sum_prod_type' (fun t r => f (pos rfl t r)), ← Equiv.sum_comp finProdFinEquiv f]
  refine Finset.sum_congr rfl fun x _ => ?_
  congr 1
  apply Fin.ext
  show R * x.1.val + x.2.val = x.2.val + R * x.1.val
  exact Nat.add_comm _ _

/-- The block that holds position `n`, and `n`'s place in it. -/
theorem pos_div_mod {B R N : Nat} (hN : B * R = N) (hR : 0 < R) (n : Fin N) :
    ∃ (t : Fin B) (r : Fin R), n = pos hN t r ∧ t.val = n.val / R ∧ r.val = n.val % R := by
  have hn : n.val / R < B := by
    rw [Nat.div_lt_iff_lt_mul hR, hN]
    exact n.isLt
  refine ⟨⟨n.val / R, hn⟩, ⟨n.val % R, Nat.mod_lt _ hR⟩, ?_, rfl, rfl⟩
  apply Fin.ext
  show n.val = R * (n.val / R) + n.val % R
  exact (Nat.div_add_mod n.val R).symm

/-- A running sum from `0 + c 0`, adding `c (n + 1)` at step n + 1, is the sum over the first n + 1 steps. -/
theorem running_sum {M : Type*} [AddCommMonoid M] (c acc : ℕ → M) (h0 : acc 0 = 0 + c 0)
    (hs : ∀ n, acc (n + 1) = acc n + c (n + 1)) (n : ℕ) : acc n = ∑ t ∈ Finset.range (n + 1), c t := by
  induction n with
  | zero =>
    show acc 0 = ∑ t ∈ Finset.range 1, c t
    rw [h0, zero_add, Finset.sum_range_one]
  | succ n ih => rw [hs, ih, Finset.sum_range_succ c (n + 1)]

/-- The same sum over `Fin`: the first B steps as a sum over `Fin B`. -/
theorem sum_range_eq_sum_fin {M : Type*} [AddCommMonoid M] (B : ℕ) (c : ℕ → M) :
    ∑ t ∈ Finset.range B, c t = ∑ t : Fin B, c t.val :=
  Finset.sum_range c

end Cert.BlockSum
-- ==== Proof.Regroup.lean ====
/- The batch as 32 blocks of two images.

   Pixel j of block t is pixel (2 t + j₀, j₁, j₂) of the batch, and its transition entries are the block's entries at
   the same place. Summing a function of the batch's pixels block by block, each block pixel by pixel, is summing it
   over all pixels: regrouping a sum in a commutative monoid (the extended reals are one, infinities included). -/
import proofs.«131891_j4552665333886_1_alg».proof.Proof.Spec
import proofs.«131891_j4552665333886_1_alg».proof.Proof.LibRank3
import proofs.«131891_j4552665333886_1_alg».proof.Proof.LibBlockSum

noncomputable section

open scoped BigOperators

namespace Cert.Wce

open Idealize.ShloMosaic Idealize.ShloMosaic.ValueIdx Cert.Rank3 Cert.BlockSum

/-- Image b of block t, among the 64 images. -/
abbrev img (t : Fin 32) (b : Fin 2) : Fin 64 := pos (B := 32) (R := 2) (N := 64) rfl t b

/-- Pixel j of block t, among the batch's pixels. -/
def glob (t : Fin 32) (j : (Pix 2).Idx) : (Pix 64).Idx := ix3 (img t (j 0)) (j 1) (j 2)

/-- Transition index k of block t, among the batch's. -/
def globT (t : Fin 32) (k : (Tra 2).Idx) : (Tra 64).Idx := ix4 (img t (k 0)) (k 1) (k 2) (k 3)

theorem glob_val0 (t : Fin 32) (j : (Pix 2).Idx) : (glob t j 0).val = 2 * t.val + (j 0).val := rfl
theorem glob_val1 (t : Fin 32) (j : (Pix 2).Idx) : (glob t j 1).val = (j 1).val := rfl
theorem glob_val2 (t : Fin 32) (j : (Pix 2).Idx) : (glob t j 2).val = (j 2).val := rfl

/-- A block pixel's transition entries are the batch pixel's. -/
theorem tr_glob (t : Fin 32) (e : Fin 2) (j : (Pix 2).Idx) : tr e (glob t j) = globT t (tr e j) :=
  funext fun a => by match a with | ⟨0, _⟩ => rfl | ⟨1, _⟩ => rfl | ⟨2, _⟩ => rfl | ⟨3, _⟩ => rfl

/-- Block by block, pixel by pixel, is all pixels. -/
theorem sum_glob {M : Type*} [AddCommMonoid M] (g : (Pix 64).Idx → M) :
    ∑ t : Fin 32, ∑ j : (Pix 2).Idx, g (glob t j) = ∑ i, g i := by
  rw [sum_idx3 g]
  rw [← sum_blocks (B := 32) (R := 2) (N := 64) rfl (fun a => ∑ h : Fin 512, ∑ w : Fin 512, g (ix3 a h w))]
  refine Finset.sum_congr rfl fun t _ => ?_
  rw [sum_idx3 (fun j : (Pix 2).Idx => g (glob t j))]
  rfl

/-- The sum of the first n + 1 of 32 block values. -/
def upTo (f : Fin 32 → EReal) (n : ℕ) : EReal := ∑ t ∈ Finset.range (n + 1), if h : t < 32 then f ⟨t, h⟩ else 0

theorem upTo_zero (f : Fin 32 → EReal) : upTo f 0 = f 0 := by
  unfold upTo
  rw [Finset.sum_range_one, dif_pos (by decide)]
  rfl

theorem upTo_succ (f : Fin 32 → EReal) (n : ℕ) (h : n + 1 < 32) : upTo f (n + 1) = upTo f n + f ⟨n + 1, h⟩ := by
  unfold upTo
  rw [Finset.sum_range_succ _ (n + 1), dif_pos h]

theorem upTo_last (f : Fin 32 → EReal) : upTo f 31 = ∑ t, f t := by
  unfold upTo
  rw [Finset.sum_range]
  exact Finset.sum_congr rfl fun t _ => by rw [dif_pos t.isLt]

/-- Every batch pixel lies in the block of its image pair. -/
theorem exists_glob (i : (Pix 64).Idx) : ∃ (t : Fin 32) (j : (Pix 2).Idx), i = glob t j ∧ t.val = (i 0).val / 2 := by
  obtain ⟨t, b, hp, ht, _⟩ := pos_div_mod (B := 32) (R := 2) (N := 64) rfl (by decide) (i 0)
  refine ⟨t, ix3 b (i 1) (i 2), ?_, ht⟩
  funext a
  match a with
  | ⟨0, _⟩ => exact hp
  | ⟨1, _⟩ => rfl
  | ⟨2, _⟩ => rfl

/-- The block's terms, read through the batch's arrays, are the batch's terms at the block's pixels. -/
theorem W_glob (pred tgt : (Pix 64).Idx → EReal) (T : (Tra 64).Idx → EReal) (mask : (Pix 64).Idx → EReal) (t : Fin 32)
    (j : (Pix 2).Idx) :
    W (fun j => pred (glob t j)) (fun j => tgt (glob t j)) (fun k => T (globT t k)) (fun j => mask (glob t j)) j
      = W pred tgt T mask (glob t j) := by
  unfold W
  rw [tr_glob, tr_glob]

theorem P1_glob (pred : (Pix 64).Idx → EReal) (T : (Tra 64).Idx → EReal) (t : Fin 32) (j : (Pix 2).Idx) :
    P1 (fun j => pred (glob t j)) (fun k => T (globT t k)) j = P1 pred T (glob t j) := by
  unfold P1
  rw [tr_glob, tr_glob]

end Cert.Wce

end
-- ==== Proof.KernelValue.lean ====
/- The kernel's run, read as values of the argument arrays.

   Point t of the grid works on images 2 t and 2 t + 1. Its probability block is q1 at those images' pixels and is
   written back at once, so the probability array ends at q1 of every pixel. The numerator and denominator cells are
   carried from point to point: after point n they hold the sums, over the first n + 1 blocks, of the blocks' weighted
   terms and mask weights; they are written back after the last point, when they hold the sums over all pixels. The
   host lines after the kernel negate the numerator and divide it by the denominator. -/
import proofs.«131891_j4552665333886_1_alg».proof.Proof.Gen.KernelIdeal.Frame
import proofs.«131891_j4552665333886_1_alg».proof.Proof.Pieces
import proofs.«131891_j4552665333886_1_alg».proof.Proof.BlockValue
import proofs.«131891_j4552665333886_1_alg».proof.Proof.Regroup
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Pieces Cert.KernelIdeal.BlockValue Cert.Wce
open Idealize.ShloMosaic.ValueIdx

variable (m : (ℓ : Loc nD τ sig) → Buf (Elt Ideal) ℓ) (ρ : Dev nD → PrngReg)

/-- The four argument arrays. -/
abbrev predA (c : Dev nD) : (Pix 64).Idx → EReal := m ((c : Thread nD τ).loc main_arg0)
abbrev tgtA (c : Dev nD) : (Pix 64).Idx → EReal := m ((c : Thread nD τ).loc main_arg1)
abbrev traA (c : Dev nD) : (Tra 64).Idx → EReal := m ((c : Thread nD τ).loc main_arg2)
abbrev maskA (c : Dev nD) : (Pix 64).Idx → EReal := m ((c : Thread nD τ).loc main_arg3)

/-- A grid point as a block number. -/
abbrev pt (t : Fin cfg0.N) : Fin 32 := ⟨t.val, lt_of_lt_of_eq t.isLt N_0⟩

/-- Every window's block index at point t is t on the image axis and 0 on the others. -/
theorem idx_at : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 4) = t.val ∧ win0_2.index t (1 : Fin 4) = 0 ∧ win0_2.index t (2 : Fin 4) = 0 ∧ win0_2.index t (3 : Fin 4) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- The prediction block at point t is the prediction array at the block's pixels. -/
theorem blk_pred (c : Dev nD) (t : Fin cfg0.N) :
    (iblk m c 0 t : Vec Ideal S2x512x512 .f32) = fun j => predA m c (glob (pt t) j) := by
  obtain ⟨⟨e0, e1, e2⟩, -⟩ := idx_at t
  funext j
  unfold iblk
  rw [View.read_apply]
  show V m c main_arg0 _ = m (c.tc.loc main_arg0) _
  unfold V
  congr 1
  funext a
  apply Fin.ext
  match a with
  | ⟨0, _⟩ => show win0_0.index t (0 : Fin 3) * 2 + 1 * (j 0).val = 2 * t.val + (j 0).val; rw [e0]; omega
  | ⟨1, _⟩ => show win0_0.index t (1 : Fin 3) * 512 + 1 * (j 1).val = (j 1).val; rw [e1]; omega
  | ⟨2, _⟩ => show win0_0.index t (2 : Fin 3) * 512 + 1 * (j 2).val = (j 2).val; rw [e2]; omega

/-- The target block. -/
theorem blk_tgt (c : Dev nD) (t : Fin cfg0.N) :
    (iblk m c 1 t : Vec Ideal S2x512x512 .f32) = fun j => tgtA m c (glob (pt t) j) := by
  obtain ⟨-, ⟨e0, e1, e2⟩, -⟩ := idx_at t
  funext j
  unfold iblk
  rw [View.read_apply]
  show V m c main_arg1 _ = m (c.tc.loc main_arg1) _
  unfold V
  congr 1
  funext a
  apply Fin.ext
  match a with
  | ⟨0, _⟩ => show win0_1.index t (0 : Fin 3) * 2 + 1 * (j 0).val = 2 * t.val + (j 0).val; rw [e0]; omega
  | ⟨1, _⟩ => show win0_1.index t (1 : Fin 3) * 512 + 1 * (j 1).val = (j 1).val; rw [e1]; omega
  | ⟨2, _⟩ => show win0_1.index t (2 : Fin 3) * 512 + 1 * (j 2).val = (j 2).val; rw [e2]; omega

/-- The transition block. -/
theorem blk_tra (c : Dev nD) (t : Fin cfg0.N) :
    (iblk m c 2 t : Vec Ideal S2x2x512x512 .f32) = fun k => traA m c (globT (pt t) k) := by
  obtain ⟨-, -, ⟨e0, e1, e2, e3⟩, -⟩ := idx_at t
  funext k
  unfold iblk
  rw [View.read_apply]
  show V m c main_arg2 _ = m (c.tc.loc main_arg2) _
  unfold V
  congr 1
  funext a
  apply Fin.ext
  match a with
  | ⟨0, _⟩ => show win0_2.index t (0 : Fin 4) * 2 + 1 * (k 0).val = 2 * t.val + (k 0).val; rw [e0]; omega
  | ⟨1, _⟩ => show win0_2.index t (1 : Fin 4) * 2 + 1 * (k 1).val = (k 1).val; rw [e1]; omega
  | ⟨2, _⟩ => show win0_2.index t (2 : Fin 4) * 512 + 1 * (k 2).val = (k 2).val; rw [e2]; omega
  | ⟨3, _⟩ => show win0_2.index t (3 : Fin 4) * 512 + 1 * (k 3).val = (k 3).val; rw [e3]; omega

/-- The mask block. -/
theorem blk_mask (c : Dev nD) (t : Fin cfg0.N) :
    (iblk m c 3 t : Vec Ideal S2x512x512 .f32) = fun j => maskA m c (glob (pt t) j) := by
  obtain ⟨-, -, -, ⟨e0, e1, e2⟩, -⟩ := idx_at t
  funext j
  unfold iblk
  rw [View.read_apply]
  show V m c main_arg3 _ = m (c.tc.loc main_arg3) _
  unfold V
  congr 1
  funext a
  apply Fin.ext
  match a with
  | ⟨0, _⟩ => show win0_3.index t (0 : Fin 3) * 2 + 1 * (j 0).val = 2 * t.val + (j 0).val; rw [e0]; omega
  | ⟨1, _⟩ => show win0_3.index t (1 : Fin 3) * 512 + 1 * (j 1).val = (j 1).val; rw [e1]; omega
  | ⟨2, _⟩ => show win0_3.index t (2 : Fin 3) * 512 + 1 * (j 2).val = (j 2).val; rw [e2]; omega

/-- Block t's weighted terms and mask weights, summed. -/
def numBlk (c : Dev nD) (t : Fin 32) : EReal :=
  ∑ j : (Pix 2).Idx, W (predA m c) (tgtA m c) (traA m c) (maskA m c) (glob t j)
def denBlk (c : Dev nD) (t : Fin 32) : EReal := ∑ j : (Pix 2).Idx, maskA m c (glob t j)

/-- The numerator cell after point t: what it held plus block t's sum of weighted terms. -/
theorem cell_num (c : Dev nD) (t : Fin cfg0.N) (acc : Vec Ideal S1x1 .f32) :
    k0_pay1 (F := Ideal) (iblk m c 1 t) (iblk m c 3 t) (k0_pay8 (iblk m c 0 t) (iblk m c 2 t))
      (k0_pay10 (iblk m c 0 t) (iblk m c 1 t) (iblk m c 2 t)) acc (ix2 (0 : Fin 1) (0 : Fin 1))
      = acc (ix2 (0 : Fin 1) (0 : Fin 1)) + numBlk m c (pt t) := by
  rw [blk_pred, blk_tgt, blk_tra, blk_mask, num_apply]
  rfl

/-- The denominator cell after point t: what it held plus block t's sum of mask weights. -/
theorem cell_den (c : Dev nD) (t : Fin cfg0.N) (acc : Vec Ideal S1x1 .f32) :
    k0_pay2 (F := Ideal) (iblk m c 3 t) acc (ix2 (0 : Fin 1) (0 : Fin 1))
      = acc (ix2 (0 : Fin 1) (0 : Fin 1)) + denBlk m c (pt t) := by
  rw [blk_mask, den_apply]
  rfl

/-- The probability block at point t is q1 at the block's pixels. -/
theorem block_prob (c : Dev nD) (t : Fin cfg0.N) :
    k0_pay9 (F := Ideal) (iblk m c 0 t : Vec Ideal S2x512x512 .f32) (iblk m c 2 t : Vec Ideal S2x2x512x512 .f32)
      = fun j => P1 (predA m c) (traA m c) (glob (pt t) j) := by
  rw [prob1_eq, blk_pred, blk_tra]
  exact funext fun j => P1_glob (predA m c) (traA m c) (pt t) j

/-- AFTER POINT n: the probability buffer holds the point's block of q1, and the two cells hold the sums over the first
    n + 1 blocks. By induction on the point. -/
theorem outsAt_eq (c : Dev nD) : ∀ (n : ℕ) (h : n < cfg0.N),
    (outsAt0 m c n h).1 = k0_pay9 (F := Ideal) (iblk m c 0 ⟨n, h⟩ : Vec Ideal S2x512x512 .f32) (iblk m c 2 ⟨n, h⟩ : Vec Ideal S2x2x512x512 .f32)
    ∧ (outsAt0 m c n h).2.1 (ix2 (0 : Fin 1) (0 : Fin 1)) = upTo (numBlk m c) n
    ∧ (outsAt0 m c n h).2.2 (ix2 (0 : Fin 1) (0 : Fin 1)) = upTo (denBlk m c) n
  | 0, h => by
    rw [outsAt0_A m c ⟨0, h⟩ rfl]
    dsimp only
    refine ⟨first_prob c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr rfl) (iblk m c 0 ⟨0, h⟩) (iblk m c 1 ⟨0, h⟩) (iblk m c 2 ⟨0, h⟩) (iblk m c 3 ⟨0, h⟩), ?_, ?_⟩
    · rw [first_num c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr rfl) (iblk m c 0 ⟨0, h⟩) (iblk m c 1 ⟨0, h⟩) (iblk m c 2 ⟨0, h⟩) (iblk m c 3 ⟨0, h⟩)]
      rw [cell_num, reset_num, zero_add, upTo_zero]
      exact congrArg (numBlk m c) (Fin.ext rfl)
    · rw [first_den c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr rfl) (iblk m c 0 ⟨0, h⟩) (iblk m c 1 ⟨0, h⟩) (iblk m c 2 ⟨0, h⟩) (iblk m c 3 ⟨0, h⟩)]
      rw [cell_den, reset_den, zero_add, upTo_zero]
      exact congrArg (denBlk m c) (Fin.ext rfl)
  | n + 1, h => by
    have hN : n + 1 < 32 := lt_of_lt_of_eq h N_0
    have hB : ¬(⟨n + 1, h⟩ : Fin cfg0.N).val % 32 = 0 := by dsimp only; omega
    obtain ⟨-, ih5, ih6⟩ := outsAt_eq c n (Nat.lt_of_succ_lt h)
    rw [outsAt0_B m c ⟨n + 1, h⟩ hB]
    dsimp only
    refine ⟨later_prob c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (fun hh => hB ((hcond0_0 ⟨n + 1, h⟩).mp hh)) (iblk m c 0 ⟨n + 1, h⟩) (iblk m c 1 ⟨n + 1, h⟩) (iblk m c 2 ⟨n + 1, h⟩) (iblk m c 3 ⟨n + 1, h⟩) _ _, ?_, ?_⟩
    · rw [later_num c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (fun hh => hB ((hcond0_0 ⟨n + 1, h⟩).mp hh)) (iblk m c 0 ⟨n + 1, h⟩) (iblk m c 1 ⟨n + 1, h⟩) (iblk m c 2 ⟨n + 1, h⟩) (iblk m c 3 ⟨n + 1, h⟩) _ _]
      rw [cell_num, upTo_succ _ n hN]
      show (outsAt0 m c n _).2.1 (ix2 (0 : Fin 1) (0 : Fin 1)) + _ = _
      rw [ih5]
    · rw [later_den c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (fun hh => hB ((hcond0_0 ⟨n + 1, h⟩).mp hh)) (iblk m c 0 ⟨n + 1, h⟩) (iblk m c 1 ⟨n + 1, h⟩) (iblk m c 2 ⟨n + 1, h⟩) (iblk m c 3 ⟨n + 1, h⟩) _ _]
      rw [cell_den, upTo_succ _ n hN]
      show (outsAt0 m c n _).2.2 (ix2 (0 : Fin 1) (0 : Fin 1)) + _ = _
      rw [ih6]

end Cert.KernelIdeal.KValue

end
-- ==== Proof.KernelFinal.lean ====
/- The kernel's three arrays after the run, the host lines after it, and the run read as values.

   The probability array is written back block by block and ends at q1 of every pixel; the numerator and denominator
   cells are written back once, after the last point, holding the sums over all pixels; the host then negates the
   numerator and divides it by the denominator: the loss. -/
import proofs.«131891_j4552665333886_1_alg».proof.Proof.KernelValue

noncomputable section

open scoped BigOperators

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Pieces Cert.KernelIdeal.BlockValue Cert.Wce
open Idealize.ShloMosaic.ValueIdx

variable (m : (ℓ : Loc nD τ sig) → Buf (Elt Ideal) ℓ) (ρ : Dev nD → PrngReg)

/-- The three results as contents of their buffers. -/
abbrev probA (c : Dev nD) : Buf (Elt Ideal) ((c : Thread nD τ).loc main_v0_0) := P1 (predA m c) (traA m c)
def numTotal (c : Dev nD) : EReal := ∑ i, W (predA m c) (tgtA m c) (traA m c) (maskA m c) i
def denTotal (c : Dev nD) : EReal := ∑ i, maskA m c i
abbrev numA (c : Dev nD) : Buf (Elt Ideal) ((c : Thread nD τ).loc main_v0_1) := fun _ => numTotal m c
abbrev denA (c : Dev nD) : Buf (Elt Ideal) ((c : Thread nD τ).loc main_v0_2) := fun _ => denTotal m c

/-- What point t writes back to the probability array is block t of q1 of the arguments. -/
theorem flushed_prob (c : Dev nD) (t : Fin cfg0.N) :
    (dats m 0 c).flushed 4 t = ((cfg0.win 4).blk t).view.read (Elt Ideal) (probA m c) := by
  obtain ⟨-, -, -, -, ⟨e0, e1, e2⟩⟩ := idx_at t
  show (cfg0.win 4).cut (grid0.coords t) ((dats m 0 c).after 4 t) = _
  rw [after0_4, (outsAt_eq m c t.val t.isLt).1, block_prob]
  funext j
  show P1 (predA m c) (traA m c) (glob (pt t) j) = P1 (predA m c) (traA m c) (((cfg0.win 4).blk t).view.emb j)
  congr 1
  funext a
  apply Fin.ext
  match a with
  | ⟨0, _⟩ => show 2 * t.val + (j 0).val = win0_4.index t (0 : Fin 3) * 2 + 1 * (j 0).val; rw [e0]; omega
  | ⟨1, _⟩ => show (j 1).val = win0_4.index t (1 : Fin 3) * 512 + 1 * (j 1).val; rw [e1]; omega
  | ⟨2, _⟩ => show (j 2).val = win0_4.index t (2 : Fin 3) * 512 + 1 * (j 2).val; rw [e2]; omega

/-- The probability array ends at q1 of every pixel: image a lies in block a / 2. -/
theorem final_prob (c : Dev nD) : (dats m 0 c).arrAt 4 cfg0.N = probA m c :=
  (dats m 0 c).arrAt_eq_of_cover 4 (probA m c) (fun t _ => flushed_prob m c t) fun i => by
    have h0 : (i 0 : Nat) < 64 := (i 0).isLt
    have h1 : (i 1 : Nat) < 512 := (i 1).isLt
    have h2 : (i 2 : Nat) < 512 := (i 2).isLt
    have hN : cfg0.N = 32 := N_0
    obtain ⟨t, ht⟩ : ∃ t : Fin cfg0.N, t.val = (i 0 : Nat) / 2 := ⟨⟨(i 0 : Nat) / 2, by rw [hN]; omega⟩, rfl⟩
    refine ⟨t, flush0_4 t, ?_⟩
    obtain ⟨-, -, -, -, ⟨e0, e1, e2⟩⟩ := idx_at t
    show i ∈ ((View.whole main_v0_0).slice (win0_4.rect t)).set
    rw [View.set_slice_whole, Rect.mem_set_unit]
    intro a
    match a with
    | ⟨0, _⟩ =>
      show win0_4.index t (0 : Fin 3) * 2 ≤ (i 0 : Nat) ∧ (i 0 : Nat) < win0_4.index t (0 : Fin 3) * 2 + 2
      rw [e0]; omega
    | ⟨1, _⟩ =>
      show win0_4.index t (1 : Fin 3) * 512 ≤ (i 1 : Nat) ∧ (i 1 : Nat) < win0_4.index t (1 : Fin 3) * 512 + 512
      rw [e1]; omega
    | ⟨2, _⟩ =>
      show win0_4.index t (2 : Fin 3) * 512 ≤ (i 2 : Nat) ∧ (i 2 : Nat) < win0_4.index t (2 : Fin 3) * 512 + 512
      rw [e2]; omega

/-- The last point. -/
abbrev tLast : Fin cfg0.N := ⟨31, by rw [show cfg0.N = 32 from N_0]; decide⟩

/-- After the last point the numerator cell holds the sum of every pixel's term. -/
theorem last_num (c : Dev nD) : (outsAt0 m c tLast.val tLast.isLt).2.1 = numA m c :=
  cell_ext (((outsAt_eq m c 31 tLast.isLt).2.1).trans ((upTo_last _).trans (sum_glob _)))

/-- After the last point the denominator cell holds the sum of every mask weight. -/
theorem last_den (c : Dev nD) : (outsAt0 m c tLast.val tLast.isLt).2.2 = denA m c :=
  cell_ext (((outsAt_eq m c 31 tLast.isLt).2.2).trans ((upTo_last _).trans (sum_glob _)))

/-- The one write-back of the numerator cell, after the last point, writes the total. -/
theorem flushed_num (c : Dev nD) (t : Fin cfg0.N) (hf : (cfg0.win 5).flush t = true) :
    (dats m 0 c).flushed 5 t = ((cfg0.win 5).blk t).view.read (Elt Ideal) (numA m c) := by
  have hN : cfg0.N = 32 := N_0
  have h31 : t.val = 31 := by have := (flush0_5 t).mp hf; have := t.isLt; omega
  obtain rfl : t = tLast := Fin.ext h31
  show (cfg0.win 5).cut (grid0.coords tLast) ((dats m 0 c).after 5 tLast) = _
  rw [after0_5, last_num]
  have hz' : (fun a => win0_5.index tLast a * main_v0_1.ty.shape.size a) = fun _ => 0 := funext fun a => by fin_cases a <;> decide +kernel
  exact (Memref.read_access_unit_zero (Elt Ideal) main_v0_1 hz' (fun a => by rw [congrFun hz' a]; simp) (numA m c)).symm

/-- The one write-back of the denominator cell writes the total. -/
theorem flushed_den (c : Dev nD) (t : Fin cfg0.N) (hf : (cfg0.win 6).flush t = true) :
    (dats m 0 c).flushed 6 t = ((cfg0.win 6).blk t).view.read (Elt Ideal) (denA m c) := by
  have hN : cfg0.N = 32 := N_0
  have h31 : t.val = 31 := by have := (flush0_6 t).mp hf; have := t.isLt; omega
  obtain rfl : t = tLast := Fin.ext h31
  show (cfg0.win 6).cut (grid0.coords tLast) ((dats m 0 c).after 6 tLast) = _
  rw [after0_6, last_den]
  have hz' : (fun a => win0_6.index tLast a * main_v0_2.ty.shape.size a) = fun _ => 0 := funext fun a => by fin_cases a <;> decide +kernel
  exact (Memref.read_access_unit_zero (Elt Ideal) main_v0_2 hz' (fun a => by rw [congrFun hz' a]; simp) (denA m c)).symm

/-- The numerator array ends at the total: its one cell is the last point's block. -/
theorem final_num (c : Dev nD) : (dats m 0 c).arrAt 5 cfg0.N = numA m c :=
  (dats m 0 c).arrAt_eq_of_cover 5 (numA m c) (flushed_num m c) fun i =>
    ⟨tLast, (flush0_5 tLast).mpr rfl, by
      show i ∈ ((View.whole main_v0_1).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 1 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 1 from by decide +kernel]; omega⟩

/-- The denominator array ends at the total. -/
theorem final_den (c : Dev nD) : (dats m 0 c).arrAt 6 cfg0.N = denA m c :=
  (dats m 0 c).arrAt_eq_of_cover 6 (denA m c) (flushed_den m c) fun i =>
    ⟨tLast, (flush0_6 tLast).mpr rfl, by
      show i ∈ ((View.whole main_v0_2).slice (win0_6.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_6.index tLast 0 * win0_6.size 0 ≤ (i 0 : Nat) ∧ (i 0 : Nat) < win0_6.index tLast 0 * win0_6.size 0 + win0_6.xsize (grid0.coords tLast) 0
                  rw [show win0_6.index tLast 0 * win0_6.size 0 = 0 from by decide +kernel, show win0_6.xsize (grid0.coords tLast) 0 = 1 from by decide +kernel]; omega
      | ⟨1, _⟩ => show win0_6.index tLast 1 * win0_6.size 1 ≤ (i 1 : Nat) ∧ (i 1 : Nat) < win0_6.index tLast 1 * win0_6.size 1 + win0_6.xsize (grid0.coords tLast) 1
                  rw [show win0_6.index tLast 1 * win0_6.size 1 = 0 from by decide +kernel, show win0_6.xsize (grid0.coords tLast) 1 = 1 from by decide +kernel]; omega⟩

/-- THE HOST LINES AFTER THE KERNEL: the numerator cell negated, divided by the denominator cell, is the loss. -/
theorem tail_loss (c : Dev nD) :
    Pipeline.afterTail₀ cfgs (dats m) 0 (V0 m) [hostOps1] c main_v4
      = fun _ => loss (predA m c) (tgtA m c) (traA m c) (maskA m c) := by
  unfold Pipeline.afterTail₀
  show StableHlo.after hostOps1 _ (Proc.devRef .tc main_v4) = _
  after_results
  have e5 : Pipeline.withArrays (cfgs 0).spec c (V0 m c) (fun w => (dats m 0 c).arrAt w (cfgs 0).N)
      (Proc.devRef .tc main_v0_1) = numA m c :=
    (Pipeline.withArrays_arr spec0 launch0.win.arr_inj c _ _ 5).trans (final_num m c)
  have e6 : Pipeline.withArrays (cfgs 0).spec c (V0 m c) (fun w => (dats m 0 c).arrAt w (cfgs 0).N)
      (Proc.devRef .tc main_v0_2) = denA m c :=
    (Pipeline.withArrays_arr spec0 launch0.win.arr_inj c _ _ 6).trans (final_den m c)
  rw [e5, e6]
  rfl

/-- THE RUN, READ: the first result at the loss, the second at q1 of every pixel, the arguments unchanged. -/
theorem run : θ_run defs (onTc (τ := τ) (main (F := Ideal))) ⟨m, fun _ => 0, ρ⟩ fun r => ∀ c : Dev nD,
      r.2.mem ((c : Thread nD τ).loc main_v4) = (fun _ => loss (predA m c) (tgtA m c) (traA m c) (maskA m c))
      ∧ r.2.mem ((c : Thread nD τ).loc main_v0_0) = probA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).2 main_v4 (by decide)).trans (tail_loss m c),
      ((h c).1 4).trans (final_prob m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.KValue

end
-- ==== Proof.lean ====
/- A weighted cross-entropy under a per-pixel label-noise transition, as a Pallas kernel against its jnp reference:
   the two programs return the same loss and the same clamped probability map, over the extended reals.

   At a pixel with prediction p, target g, transition entries t0, t1 and mask weight k both programs form
   q0 = clip (t0 (1 - p) + (1 - t1) p), q1 = clip ((1 - t0) (1 - p) + t1 p) and the term
   (g log (q1 + ε) + (1 - g) log (q0 + ε)) k, the same operations on the same words in the same order, so the terms are
   equal with no algebra. The reference sums the terms and the mask weights over all 64 · 512 · 512 pixels at once and
   returns - (Σ terms) / (Σ k) and q1. The kernel walks 32 blocks of two images: per block it sums along the row, then
   down the column, then over the two images, adds the block's two sums into two one-cell accumulators that it zeroes
   at the first block and writes back after the last, stores the block of q1, and leaves the negation and the
   division to the host. The only law joining the two sides is that a sum may be regrouped — by axis inside a block and
   by block across the batch — which holds in every commutative monoid, so in the extended reals with their
   infinities: the precondition that the inputs are finite is never used. The kernel's idealization rewrote nothing.
   The frames of the two kernel programs are the generated ones; the reference's frame is its generated run. -/
import proofs.«131891_j4552665333886_1_alg».proof.Defs
import proofs.«131891_j4552665333886_1_alg».proof.Proof.Gen.Kernel
import proofs.«131891_j4552665333886_1_alg».proof.Proof.Gen.Kernel.Skeleton
import proofs.«131891_j4552665333886_1_alg».proof.Proof.Gen.Kernel.Launch
import proofs.«131891_j4552665333886_1_alg».proof.Proof.Gen.Kernel.Points
import proofs.«131891_j4552665333886_1_alg».proof.Proof.Gen.Kernel.Frame
import proofs.«131891_j4552665333886_1_alg».proof.Proof.Gen.KernelIdeal
import proofs.«131891_j4552665333886_1_alg».proof.Proof.Gen.KernelIdeal.Skeleton
import proofs.«131891_j4552665333886_1_alg».proof.Proof.Gen.KernelIdeal.Launch
import proofs.«131891_j4552665333886_1_alg».proof.Proof.Gen.KernelIdeal.Points
import proofs.«131891_j4552665333886_1_alg».proof.Proof.Gen.KernelIdeal.Frame
import proofs.«131891_j4552665333886_1_alg».proof.Proof.Gen.ReferenceIdeal
import proofs.«131891_j4552665333886_1_alg».proof.Proof.Gen.ReferenceIdeal.Run
import proofs.«131891_j4552665333886_1_alg».proof.Proof.Gen.ReferenceIdeal.Read
import proofs.«131891_j4552665333886_1_alg».proof.Proof.Gen.Pre_finite_inputs
import proofs.«131891_j4552665333886_1_alg».proof.Proof.RefValue
import proofs.«131891_j4552665333886_1_alg».proof.Proof.KernelFinal
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference runs and keeps its arguments: its generated run, the two results dropped
    exact fun m ρ _ => (θ_run Cert.ReferenceIdeal.defs _ _).mono (fun _ h c => (h c).2.2)
      (Cert.ReferenceIdeal.Value.run (F := Ideal) m ρ)
  · -- both runs end with the loss and with q1 of every pixel, as functions of arguments that agree
    intro m ρ m' ρ' _ hagree
    refine ⟨fun c => fun _ => Cert.Wce.loss (Cert.KernelIdeal.KValue.predA m c) (Cert.KernelIdeal.KValue.tgtA m c)
        (Cert.KernelIdeal.KValue.traA m c) (Cert.KernelIdeal.KValue.maskA m c),
      fun c => Cert.KernelIdeal.KValue.probA m c, Cert.KernelIdeal.KValue.run m ρ, ?_⟩
    refine (θ_run Cert.ReferenceIdeal.defs _ _).mono (fun _ h c => ?_) (Cert.ReferenceIdeal.Value.run (F := Ideal) m' ρ')
    obtain ⟨a0, a1, a2, a3⟩ := hagree c
    refine ⟨(h c).1.trans ?_, (h c).2.1.trans ?_, (h c).2.2⟩
    · refine (Cert.ReferenceIdeal.Read.val_main_v33_eq (F := Ideal) (m' ((c.tc : Thread _ _).loc Cert.ReferenceIdeal.main_arg0))
        (m' ((c.tc : Thread _ _).loc Cert.ReferenceIdeal.main_arg1)) (m' ((c.tc : Thread _ _).loc Cert.ReferenceIdeal.main_arg2))
        (m' ((c.tc : Thread _ _).loc Cert.ReferenceIdeal.main_arg3))).trans ?_
      rw [Cert.ReferenceIdeal.RefValue.first_eq, a0, a1, a2, a3]
      rfl
    · refine (Cert.ReferenceIdeal.Read.val_main_v17_eq (F := Ideal) (m' ((c.tc : Thread _ _).loc Cert.ReferenceIdeal.main_arg0))
        (m' ((c.tc : Thread _ _).loc Cert.ReferenceIdeal.main_arg2))).trans ?_
      rw [Cert.ReferenceIdeal.RefValue.second_eq, a0, a2]⟩

end Cert.Proof

end
